-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S100000x256 : Shape := ⟨2, ![100000, 256]⟩
abbrev S100000x128 : Shape := ⟨2, ![100000, 128]⟩
abbrev S128x32 : Shape := ⟨2, ![128, 32]⟩
abbrev S32 : Shape := ⟨1, ![32]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S100000x128 : S_.BroadcastsInDim S100000x128 (![] : Fin 0 → Fin S100000x128.rank)
  reducesTo_S100000x128_S_d0_1 : S100000x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S4096x256 .f32) (main_arg1 : FVec F S100000x256 .f32) (main_arg2 : FVec F S100000x128 .f32) (main_arg3 : FVec F S128x32 .f32) (main_arg4 : FVec F S32 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S128x32 .f32 := Host.absf main_arg3
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg4 main_v13 main_v16
-- ==== Kernel.lean ====
abbrev S4096x256 : Shape := ⟨2, ![4096, 256]⟩
abbrev S100000x256 : Shape := ⟨2, ![100000, 256]⟩
abbrev S100000x128 : Shape := ⟨2, ![100000, 128]⟩
abbrev S128x32 : Shape := ⟨2, ![128, 32]⟩
abbrev S32 : Shape := ⟨1, ![32]⟩
abbrev S1x32 : Shape := ⟨2, ![1, 32]⟩
abbrev S4096x32 : Shape := ⟨2, ![4096, 32]⟩
abbrev S5000x256 : Shape := ⟨2, ![5000, 256]⟩
abbrev S5000x128 : Shape := ⟨2, ![5000, 128]⟩
abbrev S256x32 : Shape := ⟨2, ![256, 32]⟩
abbrev S5000x32 : Shape := ⟨2, ![5000, 32]⟩

abbrev nBuf : Space → Nat
  | .hbm => 7
  | .vmem => 9
  | .smem => 0
  | _ => 0

abbrev bufTy : (tb : Table) → Fin (tcTables nBuf tb) → BufTy
  | .hbm, ⟨0, _⟩ => ⟨S4096x256, .f32⟩
  | .hbm, ⟨1, _⟩ => ⟨S100000x256, .f32⟩
  | .hbm, ⟨2, _⟩ => ⟨S100000x128, .f32⟩
  | .hbm, ⟨3, _⟩ => ⟨S128x32, .f32⟩
  | .hbm, ⟨4, _⟩ => ⟨S32, .f32⟩
  | .hbm, ⟨5, _⟩ => ⟨S1x32, .f32⟩
  | .hbm, ⟨6, _⟩ => ⟨S4096x32, .f32⟩
  | .local _ .vmem, ⟨0, _⟩ => ⟨S5000x256, .f32⟩
  | .local _ .vmem, ⟨1, _⟩ => ⟨S5000x256, .f32⟩
  | .local _ .vmem, ⟨2, _⟩ => ⟨S5000x128, .f32⟩
  | .local _ .vmem, ⟨3, _⟩ => ⟨S5000x128, .f32⟩
  | .local _ .vmem, ⟨4, _⟩ => ⟨S128x32, .f32⟩
  | .local _ .vmem, ⟨5, _⟩ => ⟨S1x32, .f32⟩
  | .local _ .vmem, ⟨6, _⟩ => ⟨S4096x256, .f32⟩
  | .local _ .vmem, ⟨7, _⟩ => ⟨S4096x32, .f32⟩
  | .local _ .vmem, ⟨8, _⟩ => ⟨S256x32, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v21 : BitVec 1 := Scalar.cmpi .eq arg0 c19_i32
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S32_S1x32 : S32.ShapeCasts S1x32
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S5000x128_S5000x128_0_0 : ∀ a, (![0, 0] : Fin 2 → Nat) a + S5000x128.size a ≤ S5000x128.size a
  h_S5000x128 : 0 < S5000x128.numel
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S4096x32_S4096x32_0_0 : ∀ a, (![0, 0] : Fin 2 → Nat) a + S4096x32.size a ≤ S4096x32.size a
  h_S4096x32 : 0 < S4096x32.numel
  dot_S5000x128_S128x32_S5000x32_1_0_0_1_n_n_wf : DotDims.WF S5000x128 S128x32 S5000x32 [1] [0] [0] [1] [] []
  dot_S5000x256_S5000x32_S256x32_0_0_1_1_n_n_wf : DotDims.WF S5000x256 S5000x32 S256x32 [0] [0] [1] [1] [] []
  dot_S4096x256_S256x32_S4096x32_1_0_0_1_n_n_wf : DotDims.WF S4096x256 S256x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S4096x256.size a
  hwx0_4 : ∀ i : grid0.Coords, EltTy.bits .f32 = 32 ∨ (Rect.block (s := S4096x256) S4096x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x32.size a ≤ S4096x32.size a
  hwx0_5 : ∀ i : grid0.Coords, EltTy.bits .f32 = 32 ∨ (Rect.block (s := S4096x32) S4096x32.size (cc0_transform_5 i) (hinb0_5 i)).WholeWords (EltTy.packing .f32)

variable [Facts₀]

def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def dot_S5000x256_S5000x32_S256x32_0_0_1_1_n_n : DotDims S5000x256 S5000x32 S256x32 where
  lhsContracting := [0]
  rhsContracting := [0]
  lhsNonContracting := [1]
  rhsNonContracting := [1]
  lhsBatch := []
  rhsBatch := []
  wf := dot_S5000x256_S5000x32_S256x32_0_0_1_1_n_n_wf
def dot_S4096x256_S256x32_S4096x32_1_0_0_1_n_n : DotDims S4096x256 S256x32 S4096x32 where
  lhsContracting := [1]
  rhsContracting := [0]
  lhsNonContracting := [0]
  rhsNonContracting := [1]
  lhsBatch := []
  rhsBatch := []
  wf := dot_S4096x256_S256x32_S4096x32_1_0_0_1_n_n_wf

abbrev win0_0 : Pipeline.Window sig grid0 :=
  Pipeline.Window.ofSpec (Memref.whole main_arg1) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S4096x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S4096x32.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x256 : Shape := ⟨2, ![4096, 256]⟩
abbrev S100000x256 : Shape := ⟨2, ![100000, 256]⟩
abbrev S100000x128 : Shape := ⟨2, ![100000, 128]⟩
abbrev S128x32 : Shape := ⟨2, ![128, 32]⟩
abbrev S32 : Shape := ⟨1, ![32]⟩
abbrev S100000x32 : Shape := ⟨2, ![100000, 32]⟩
abbrev S1x32 : Shape := ⟨2, ![1, 32]⟩
abbrev S_ : Shape := ⟨0, ![]⟩
abbrev S256x100000 : Shape := ⟨2, ![256, 100000]⟩
abbrev S256x32 : Shape := ⟨2, ![256, 32]⟩
abbrev S4096x32 : Shape := ⟨2, ![4096, 32]⟩

abbrev nBuf : Space → Nat
  | .hbm => 21
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S100000x256, .f32⟩
  | .hbm, ⟨2, _⟩ => ⟨S100000x128, .f32⟩
  | .hbm, ⟨3, _⟩ => ⟨S128x32, .f32⟩
  | .hbm, ⟨4, _⟩ => ⟨S32, .f32⟩
  | .hbm, ⟨5, _⟩ => ⟨S100000x32, .f32⟩
  | .hbm, ⟨6, _⟩ => ⟨S1x32, .f32⟩
  | .hbm, ⟨7, _⟩ => ⟨S100000x32, .f32⟩
  | .hbm, ⟨8, _⟩ => ⟨S100000x32, .f32⟩
  | .hbm, ⟨9, _⟩ => ⟨S100000x32, .f32⟩
  | .hbm, ⟨10, _⟩ => ⟨S100000x32, .f32⟩
  | .hbm, ⟨11, _⟩ => ⟨S_, .f32⟩
  | .hbm, ⟨12, _⟩ => ⟨S100000x32, .f32⟩
  | .hbm, ⟨13, _⟩ => ⟨S100000x32, .f32⟩
  | .hbm, ⟨14, _⟩ => ⟨S_, .f32⟩
  | .hbm, ⟨15, _⟩ => ⟨S100000x32, .f32⟩
  | .hbm, ⟨16, _⟩ => ⟨S100000x32, .f32⟩
  | .hbm, ⟨17, _⟩ => ⟨S100000x32, .f32⟩
  | .hbm, ⟨18, _⟩ => ⟨S256x100000, .f32⟩
  | .hbm, ⟨19, _⟩ => ⟨S256x32, .f32⟩
  | .hbm, ⟨20, _⟩ => ⟨S4096x32, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  transposes_S100000x256_S256x100000_1_0 : S100000x256.Transposes [1, 0] S256x100000
  dot_S100000x128_S128x32_S100000x32_1_0_0_1_n_n_wf : DotDims.WF S100000x128 S128x32 S100000x32 [1] [0] [0] [1] [] []
  dot_S256x100000_S100000x32_S256x32_1_0_0_1_n_n_wf : DotDims.WF S256x100000 S100000x32 S256x32 [1] [0] [0] [1] [] []
  dot_S4096x256_S256x32_S4096x32_1_0_0_1_n_n_wf : DotDims.WF S4096x256 S256x32 S4096x32 [1] [0] [0] [1] [] []

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S256x100000_S100000x32_S256x32_1_0_0_1_n_n : DotDims S256x100000 S100000x32 S256x32 where
  lhsContracting := [1]
  rhsContracting := [0]
  lhsNonContracting := [0]
  rhsNonContracting := [1]
  lhsBatch := []
  rhsBatch := []
  wf := dot_S256x100000_S100000x32_S256x32_1_0_0_1_n_n_wf
def dot_S4096x256_S256x32_S4096x32_1_0_0_1_n_n : DotDims S4096x256 S256x32 S4096x32 where
  lhsContracting := [1]
  rhsContracting := [0]
  lhsNonContracting := [0]
  rhsNonContracting := [1]
  lhsBatch := []
  rhsBatch := []
  wf := dot_S4096x256_S256x32_S4096x32_1_0_0_1_n_n_wf

class Facts : Prop extends Facts₀ where

variable [Facts]
-- ==== Proof.Pieces.lean ====
/-
  What each control case of the kernel body leaves behind, as values.

  At the first grid point the body stores the zero block into the accumulator, reads it back, and stores
  the accumulation step over it; at every later point it stores the accumulation step over what the point
  before left; at the last point it moreover stores the pooling product of the pools with the accumulator
  it has just written. Every load reads a whole buffer, so each stored value is the body's pure term of the
  blocks the point was handed.
-/
import proofs.«102818_g73882027425809_cont_9to1c4b_278_3_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- A middle point leaves in the accumulator the accumulation step over what it found there. -/
theorem scratch_B (c : Dev nD) (i : grid0.Coords) (arg1 : Memref sig .tc .vmem S5000x256 .f32) (harg1 : arg1.IsWhole) (arg2 : Memref sig .tc .vmem S5000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S4096x256 .f32) (harg5 : arg5.IsWhole) (arg6 : Memref sig .tc .vmem S4096x32 .f32) (harg6 : arg6.IsWhole) (arg7 : Memref sig .tc .vmem S256x32 .f32) (harg7 : arg7.IsWhole) (hc0 : ¬cond0_0 i) (hc1 : ¬cond0_1 i)
    (x0 : Vec F S5000x256 .f32) (x1 : Vec F S5000x128 .f32) (x2 : Vec F S128x32 .f32) (x3 : Vec F S1x32 .f32) (x4 : Vec F S4096x256 .f32) (xs0 : Vec F S256x32 .f32) :
    sout0_B_0 c i arg1 harg1 arg2 harg2 arg3 harg3 arg4 harg4 arg5 harg5 arg6 harg6 arg7 harg7 hc0 hc1 x0 x1 x2 x3 x4 xs0 = k0_pay2 x1 x2 x3 xs0 x0 := by
  unfold sout0_B_0
  rw [View.read_writes_eq_canon _ _ _ (scover0_B_0 c i arg1 harg1 arg2 harg2 arg3 harg3 arg4 harg4 arg5 harg5 arg6 harg6 arg7 harg7 hc0 hc1 x0 x1 x2 x3 x4 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, View.ld_unit_zero (S := S5000x256) hz, View.ld_unit_zero (S := S5000x128) hz, View.ld_unit_zero (S := S128x32) hz, View.ld_unit_zero (S := S1x32) hz, View.ld_unit_zero (S := S4096x256) hz, View.ld_unit_zero (S := S4096x32) hz, View.ld_unit_zero (S := S256x32) hz]

/-- The last point leaves in the accumulator the accumulation step over what it found there, -/
theorem scratch_C (c : Dev nD) (i : grid0.Coords) (arg1 : Memref sig .tc .vmem S5000x256 .f32) (harg1 : arg1.IsWhole) (arg2 : Memref sig .tc .vmem S5000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S4096x256 .f32) (harg5 : arg5.IsWhole) (arg6 : Memref sig .tc .vmem S4096x32 .f32) (harg6 : arg6.IsWhole) (arg7 : Memref sig .tc .vmem S256x32 .f32) (harg7 : arg7.IsWhole) (hc0 : ¬cond0_0 i) (hc1 : cond0_1 i)
    (x0 : Vec F S5000x256 .f32) (x1 : Vec F S5000x128 .f32) (x2 : Vec F S128x32 .f32) (x3 : Vec F S1x32 .f32) (x4 : Vec F S4096x256 .f32) (xs0 : Vec F S256x32 .f32) :
    sout0_C_0 c i arg1 harg1 arg2 harg2 arg3 harg3 arg4 harg4 arg5 harg5 arg6 harg6 arg7 harg7 hc0 hc1 x0 x1 x2 x3 x4 xs0 = k0_pay2 x1 x2 x3 xs0 x0 := by
  unfold sout0_C_0
  rw [View.read_writes_eq_canon _ _ _ (scover0_C_0 c i arg1 harg1 arg2 harg2 arg3 harg3 arg4 harg4 arg5 harg5 arg6 harg6 arg7 harg7 hc0 hc1 x0 x1 x2 x3 x4 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, View.ld_unit_zero (S := S5000x256) hz, View.ld_unit_zero (S := S5000x128) hz, View.ld_unit_zero (S := S128x32) hz, View.ld_unit_zero (S := S1x32) hz, View.ld_unit_zero (S := S4096x256) hz, View.ld_unit_zero (S := S4096x32) hz, View.ld_unit_zero (S := S256x32) hz]

/-- and in the output block the pooling product of the pools with that new accumulator. -/
theorem output_C (c : Dev nD) (i : grid0.Coords) (arg1 : Memref sig .tc .vmem S5000x256 .f32) (harg1 : arg1.IsWhole) (arg2 : Memref sig .tc .vmem S5000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S4096x256 .f32) (harg5 : arg5.IsWhole) (arg6 : Memref sig .tc .vmem S4096x32 .f32) (harg6 : arg6.IsWhole) (arg7 : Memref sig .tc .vmem S256x32 .f32) (harg7 : arg7.IsWhole) (hc0 : ¬cond0_0 i) (hc1 : cond0_1 i)
    (x0 : Vec F S5000x256 .f32) (x1 : Vec F S5000x128 .f32) (x2 : Vec F S128x32 .f32) (x3 : Vec F S1x32 .f32) (x4 : Vec F S4096x256 .f32) (xs0 : Vec F S256x32 .f32) :
    out0_C_5 c i arg1 harg1 arg2 harg2 arg3 harg3 arg4 harg4 arg5 harg5 arg6 harg6 arg7 harg7 hc0 hc1 x0 x1 x2 x3 x4 xs0 = k0_pay3 x4 (k0_pay2 x1 x2 x3 xs0 x0) := by
  unfold out0_C_5
  rw [View.read_writes_eq_canon _ _ _ (cover0_C_5 c i arg1 harg1 arg2 harg2 arg3 harg3 arg4 harg4 arg5 harg5 arg6 harg6 arg7 harg7 hc0 hc1 x0 x1 x2 x3 x4 xs0)]
  unfold kernelRun0_C
  dsimp only
  sl_unfold_words
  rw [View.canon_unit_zero hz]
  simp only [View.readCov_unit_zero (S := S256x32) _ hz, View.readAt_eq_ld, harg1.read_unread, harg2.read_unread, harg3.read_unread, harg4.read_unread, harg5.read_unread, harg6.read_unread, harg7.read_unread, View.ld_unit_zero (S := S5000x256) hz, View.ld_unit_zero (S := S5000x128) hz, View.ld_unit_zero (S := S128x32) hz, View.ld_unit_zero (S := S1x32) hz, View.ld_unit_zero (S := S4096x256) hz, View.ld_unit_zero (S := S4096x32) hz, View.ld_unit_zero (S := S256x32) hz]

/-- The first point leaves in the accumulator the accumulation step over the zero block it has just stored. -/
theorem scratch_A (c : Dev nD) (i : grid0.Coords) (arg1 : Memref sig .tc .vmem S5000x256 .f32) (harg1 : arg1.IsWhole) (arg2 : Memref sig .tc .vmem S5000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S4096x256 .f32) (harg5 : arg5.IsWhole) (arg6 : Memref sig .tc .vmem S4096x32 .f32) (harg6 : arg6.IsWhole) (arg7 : Memref sig .tc .vmem S256x32 .f32) (harg7 : arg7.IsWhole) (hc0 : cond0_0 i) (hc1 : ¬cond0_1 i)
    (x0 : Vec F S5000x256 .f32) (x1 : Vec F S5000x128 .f32) (x2 : Vec F S128x32 .f32) (x3 : Vec F S1x32 .f32) (x4 : Vec F S4096x256 .f32) :
    sout0_A_0 c i arg1 harg1 arg2 harg2 arg3 harg3 arg4 harg4 arg5 harg5 arg6 harg6 arg7 harg7 hc0 hc1 x0 x1 x2 x3 x4 = k0_pay2 x1 x2 x3 (k0_pay1 (F := F)) x0 := by
  unfold sout0_A_0
  rw [View.read_writes_eq_canon _ _ _ (scover0_A_0 c i arg1 harg1 arg2 harg2 arg3 harg3 arg4 harg4 arg5 harg5 arg6 harg6 arg7 harg7 hc0 hc1 x0 x1 x2 x3 x4)]
  unfold kernelRun0_A
  dsimp only
  sl_unfold_words
  rw [View.canon_cons_unit_zero (S := S256x32) hz, View.readCov_unit_zero (S := S256x32) _ hz]
  simp only [View.readAt_eq_ld, harg1.read_unread, harg2.read_unread, harg3.read_unread, harg4.read_unread, harg5.read_unread, harg6.read_unread, harg7.read_unread, View.ld_unit_zero (S := S5000x256) hz, View.ld_unit_zero (S := S5000x128) hz, View.ld_unit_zero (S := S128x32) hz, View.ld_unit_zero (S := S1x32) hz, View.ld_unit_zero (S := S4096x256) hz, View.ld_unit_zero (S := S4096x32) hz, View.ld_unit_zero (S := S256x32) hz]

end Cert.KernelIdeal.Pieces

end
-- ==== Proof.Spec.lean ====
/-
  The function both programs compute, over the extended reals.

  A dense layer with the swish activation maps each of the 100000 card rows to 32 numbers:
  `t(n, q) = s · σ(s)` with `s = Σ_d card(n, d) · w(d, q) + bias(q)` and `σ(s) = 1 / (1 + e^(-s))`.
  The path embedding contracts the rows away against the metapath matrix,
  `E(p, q) = Σ_n meta(n, p) · t(n, q)`, and the result pools it per batch row,
  `out(a, q) = Σ_p pools(a, p) · E(p, q)`.

  The sum over the 100000 rows may be taken 5000 rows at a time: addition of extended reals is
  commutative and associative, so regrouping a finite sum into twenty consecutive blocks changes
  nothing, with no finiteness assumption (`pathEmb_eq_sum_blocks`).
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open scoped BigOperators

namespace Cert.PathEmbed

open Idealize.ShloMosaic Idealize.ShloMosaic.ValueIdx

/-- The swish activation `x · σ(x)` on the extended reals. -/
def swish (x : EReal) : EReal := x * Ideal.logistic x

/-- One entry of the dense layer before the activation: row `n` of the card embeddings against
    column `q` of the weights, plus the bias at `q`. -/
def dense (card : (⟨2, ![100000, 128]⟩ : Shape).Idx → EReal) (w : (⟨2, ![128, 32]⟩ : Shape).Idx → EReal)
    (bias : Fin 32 → EReal) (n : Fin 100000) (q : Fin 32) : EReal :=
  (∑ d : Fin 128, card (ix2 n d) * w (ix2 d q)) + bias q

/-- Row `n`'s contribution to entry `(p, q)` of the path embedding. -/
def rowTerm (mp : (⟨2, ![100000, 256]⟩ : Shape).Idx → EReal) (card : (⟨2, ![100000, 128]⟩ : Shape).Idx → EReal)
    (w : (⟨2, ![128, 32]⟩ : Shape).Idx → EReal) (bias : Fin 32 → EReal) (n : Fin 100000) (p : Fin 256) (q : Fin 32) : EReal :=
  mp (ix2 n p) * swish (dense card w bias n q)

/-- Entry `(p, q)` of the path embedding: the sum of all rows' contributions. -/
def pathEmb (mp : (⟨2, ![100000, 256]⟩ : Shape).Idx → EReal) (card : (⟨2, ![100000, 128]⟩ : Shape).Idx → EReal)
    (w : (⟨2, ![128, 32]⟩ : Shape).Idx → EReal) (bias : Fin 32 → EReal) (p : Fin 256) (q : Fin 32) : EReal :=
  ∑ n : Fin 100000, rowTerm mp card w bias n p q

/-- The contribution of the `t`-th block of 5000 consecutive rows (rows `5000 t … 5000 t + 4999`); zero past
    the twentieth block. -/
def blockEmb (mp : (⟨2, ![100000, 256]⟩ : Shape).Idx → EReal) (card : (⟨2, ![100000, 128]⟩ : Shape).Idx → EReal)
    (w : (⟨2, ![128, 32]⟩ : Shape).Idx → EReal) (bias : Fin 32 → EReal) (t : ℕ) (p : Fin 256) (q : Fin 32) : EReal :=
  if h : t < 20 then ∑ r : Fin 5000, rowTerm mp card w bias ⟨5000 * t + r.val, by have := r.isLt; omega⟩ p q else 0

/-- A sum over 100000 indices is the sum over twenty blocks of the sums over each block's 5000 indices. -/
theorem sum_rows_eq_sum_blocks {M : Type*} [AddCommMonoid M] (f : Fin 100000 → M) :
    ∑ n : Fin 100000, f n
      = ∑ t : Fin 20, ∑ r : Fin 5000, f ⟨5000 * t.val + r.val, by have := t.isLt; have := r.isLt; omega⟩ := by
  rw [← Equiv.sum_comp (finProdFinEquiv (m := 20) (n := 5000)) f, Fintype.sum_prod_type]
  refine Finset.sum_congr rfl fun t _ => Finset.sum_congr rfl fun r _ => congrArg f (Fin.ext ?_)
  show r.val + 5000 * t.val = 5000 * t.val + r.val
  omega

/-- The path embedding is the sum of its twenty blocks' contributions. -/
theorem pathEmb_eq_sum_blocks (mp : (⟨2, ![100000, 256]⟩ : Shape).Idx → EReal) (card : (⟨2, ![100000, 128]⟩ : Shape).Idx → EReal)
    (w : (⟨2, ![128, 32]⟩ : Shape).Idx → EReal) (bias : Fin 32 → EReal) (p : Fin 256) (q : Fin 32) :
    pathEmb mp card w bias p q = ∑ s ∈ Finset.range 20, blockEmb mp card w bias s p q := by
  unfold pathEmb
  rw [sum_rows_eq_sum_blocks, Finset.sum_range]
  refine Finset.sum_congr rfl fun t _ => ?_
  unfold blockEmb
  rw [dif_pos t.isLt]

/-- The pooled result at batch row `a` and column `q`. -/
def pooled (pools : (⟨2, ![4096, 256]⟩ : Shape).Idx → EReal) (mp : (⟨2, ![100000, 256]⟩ : Shape).Idx → EReal)
    (card : (⟨2, ![100000, 128]⟩ : Shape).Idx → EReal) (w : (⟨2, ![128, 32]⟩ : Shape).Idx → EReal)
    (bias : Fin 32 → EReal) (a : Fin 4096) (q : Fin 32) : EReal :=
  ∑ p : Fin 256, pools (ix2 a p) * pathEmb mp card w bias p q

/-- The whole result array. -/
def result (pools : (⟨2, ![4096, 256]⟩ : Shape).Idx → EReal) (mp : (⟨2, ![100000, 256]⟩ : Shape).Idx → EReal)
    (card : (⟨2, ![100000, 128]⟩ : Shape).Idx → EReal) (w : (⟨2, ![128, 32]⟩ : Shape).Idx → EReal)
    (bias : Fin 32 → EReal) : (⟨2, ![4096, 32]⟩ : Shape).Idx → EReal :=
  fun i => pooled pools mp card w bias (i 0) (i 1)

end Cert.PathEmbed

end
-- ==== Proof.Payload.lean ====
/-
  The kernel body's three stored values, read at one index over the extended reals.

  The reset value is the zero block. The value stored back into the accumulator is the accumulator's old
  entry plus the block's contraction: at `(p, q)`, `acc(p, q) + Σ_r meta(r, p) · t(r, q)` over the block's
  5000 rows, with `t(r, q)` the swish of the dense entry `Σ_d card(r, d) · w(d, q) + bias(q)` — a change of
  float format is the identity on extended reals, and a matrix product into a zero accumulator is the plain
  sum of products. The final value is the pooling product `Σ_p pools(a, p) · acc(p, q)`.
-/
import proofs.«102818_g73882027425809_cont_9to1c4b_278_3_alg».proof.Proof.Gen.KernelIdeal.Skeleton
import proofs.«102818_g73882027425809_cont_9to1c4b_278_3_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.PathEmbed

/-! ## The dense product: rows of the card block against columns of the weights -/

theorem lhs_dense_0 (i : S5000x32.Idx) (k : dot_S5000x128_S128x32_S5000x32_1_0_0_1_n_n.contr.Idx) :
    (dot_S5000x128_S128x32_S5000x32_1_0_0_1_n_n.lhsIdx i k 0).val = (i 0).val := by
  unfold DotDims.lhsIdx
  rw [dif_neg (show ¬(0 : Fin S5000x128.rank) ∈ dot_S5000x128_S128x32_S5000x32_1_0_0_1_n_n.lhsBatch by decide), dif_pos (show (0 : Fin S5000x128.rank) ∈ dot_S5000x128_S128x32_S5000x32_1_0_0_1_n_n.lhsNonContracting by decide)]
  rfl
theorem lhs_dense_1 (i : S5000x32.Idx) (k : dot_S5000x128_S128x32_S5000x32_1_0_0_1_n_n.contr.Idx) :
    (dot_S5000x128_S128x32_S5000x32_1_0_0_1_n_n.lhsIdx i k 1).val = (k ⟨0, by decide⟩).val :=
  dot_S5000x128_S128x32_S5000x32_1_0_0_1_n_n.lhsIdx_val_of_single rfl i k
theorem rhs_dense_0 (i : S5000x32.Idx) (k : dot_S5000x128_S128x32_S5000x32_1_0_0_1_n_n.contr.Idx) :
    (dot_S5000x128_S128x32_S5000x32_1_0_0_1_n_n.rhsIdx i k 0).val = (k ⟨0, by decide⟩).val :=
  dot_S5000x128_S128x32_S5000x32_1_0_0_1_n_n.rhsIdx_val_of_single rfl i k
theorem rhs_dense_1 (i : S5000x32.Idx) (k : dot_S5000x128_S128x32_S5000x32_1_0_0_1_n_n.contr.Idx) :
    (dot_S5000x128_S128x32_S5000x32_1_0_0_1_n_n.rhsIdx i k 1).val = (i 1).val := by
  unfold DotDims.rhsIdx
  rw [dif_neg (show ¬(1 : Fin S128x32.rank) ∈ dot_S5000x128_S128x32_S5000x32_1_0_0_1_n_n.rhsBatch by decide), dif_pos (show (1 : Fin S128x32.rank) ∈ dot_S5000x128_S128x32_S5000x32_1_0_0_1_n_n.rhsNonContracting by decide)]
  rfl

/-- The dense product into a zero accumulator, at row `r` and column `q`: the sum over the 128 features. -/
theorem dense_matmul_apply (x : FVec Ideal S5000x128 .f32) (w : FVec Ideal S128x32 .f32) (r : Fin 5000) (q : Fin 32) :
    matmul dot_S5000x128_S128x32_S5000x32_1_0_0_1_n_n none x w (constant S5000x32 .f32 0x00000000#32) (ix2 r q)
      = ∑ d : Fin 128, x (ix2 r d) * w (ix2 d q) := by
  simp only [matmul]
  rw [Ideal.matmul_constant_zero_apply, ← Equiv.sum_comp (contrEquiv1 dot_S5000x128_S128x32_S5000x32_1_0_0_1_n_n 128 rfl rfl).symm]
  refine Finset.sum_congr rfl fun k _ => ?_
  have hk := contrEquiv1_symm_val dot_S5000x128_S128x32_S5000x32_1_0_0_1_n_n 128 rfl rfl k
  have el : dot_S5000x128_S128x32_S5000x32_1_0_0_1_n_n.lhsIdx (ix2 r q) ((contrEquiv1 dot_S5000x128_S128x32_S5000x32_1_0_0_1_n_n 128 rfl rfl).symm k) = ix2 r k := funext fun a => Fin.ext (by
    match a with
    | ⟨0, _⟩ => exact lhs_dense_0 _ _
    | ⟨1, _⟩ => exact (lhs_dense_1 _ _).trans hk)
  have er : dot_S5000x128_S128x32_S5000x32_1_0_0_1_n_n.rhsIdx (ix2 r q) ((contrEquiv1 dot_S5000x128_S128x32_S5000x32_1_0_0_1_n_n 128 rfl rfl).symm k) = ix2 k q := funext fun a => Fin.ext (by
    match a with
    | ⟨0, _⟩ => exact (rhs_dense_0 _ _).trans hk
    | ⟨1, _⟩ => exact rhs_dense_1 _ _)
  rw [el, er]

/-! ## The block's contraction: the metapath block's columns against the activated block's columns, over the rows -/

theorem lhs_contract_0 (i : S256x32.Idx) (k : dot_S5000x256_S5000x32_S256x32_0_0_1_1_n_n.contr.Idx) :
    (dot_S5000x256_S5000x32_S256x32_0_0_1_1_n_n.lhsIdx i k 0).val = (k ⟨0, by decide⟩).val :=
  dot_S5000x256_S5000x32_S256x32_0_0_1_1_n_n.lhsIdx_val_of_single rfl i k
theorem lhs_contract_1 (i : S256x32.Idx) (k : dot_S5000x256_S5000x32_S256x32_0_0_1_1_n_n.contr.Idx) :
    (dot_S5000x256_S5000x32_S256x32_0_0_1_1_n_n.lhsIdx i k 1).val = (i 0).val := by
  unfold DotDims.lhsIdx
  rw [dif_neg (show ¬(1 : Fin S5000x256.rank) ∈ dot_S5000x256_S5000x32_S256x32_0_0_1_1_n_n.lhsBatch by decide), dif_pos (show (1 : Fin S5000x256.rank) ∈ dot_S5000x256_S5000x32_S256x32_0_0_1_1_n_n.lhsNonContracting by decide)]
  rfl
theorem rhs_contract_0 (i : S256x32.Idx) (k : dot_S5000x256_S5000x32_S256x32_0_0_1_1_n_n.contr.Idx) :
    (dot_S5000x256_S5000x32_S256x32_0_0_1_1_n_n.rhsIdx i k 0).val = (k ⟨0, by decide⟩).val :=
  dot_S5000x256_S5000x32_S256x32_0_0_1_1_n_n.rhsIdx_val_of_single rfl i k
theorem rhs_contract_1 (i : S256x32.Idx) (k : dot_S5000x256_S5000x32_S256x32_0_0_1_1_n_n.contr.Idx) :
    (dot_S5000x256_S5000x32_S256x32_0_0_1_1_n_n.rhsIdx i k 1).val = (i 1).val := by
  unfold DotDims.rhsIdx
  rw [dif_neg (show ¬(1 : Fin S5000x32.rank) ∈ dot_S5000x256_S5000x32_S256x32_0_0_1_1_n_n.rhsBatch by decide), dif_pos (show (1 : Fin S5000x32.rank) ∈ dot_S5000x256_S5000x32_S256x32_0_0_1_1_n_n.rhsNonContracting by decide)]
  rfl

/-- The block's contraction into a zero accumulator at `(p, q)`: the sum over the block's 5000 rows. -/
theorem contract_matmul_apply {φ₁ φ₂ : FTy} (x : FVec Ideal S5000x256 φ₁) (y : FVec Ideal S5000x32 φ₂) (p : Fin 256) (q : Fin 32) :
    matmul dot_S5000x256_S5000x32_S256x32_0_0_1_1_n_n none x y (constant S256x32 .f32 0x00000000#32) (ix2 p q)
      = ∑ r : Fin 5000, x (ix2 r p) * y (ix2 r q) := by
  simp only [matmul]
  rw [Ideal.matmul_constant_zero_apply, ← Equiv.sum_comp (contrEquiv1 dot_S5000x256_S5000x32_S256x32_0_0_1_1_n_n 5000 rfl rfl).symm]
  refine Finset.sum_congr rfl fun k _ => ?_
  have hk := contrEquiv1_symm_val dot_S5000x256_S5000x32_S256x32_0_0_1_1_n_n 5000 rfl rfl k
  have el : dot_S5000x256_S5000x32_S256x32_0_0_1_1_n_n.lhsIdx (ix2 p q) ((contrEquiv1 dot_S5000x256_S5000x32_S256x32_0_0_1_1_n_n 5000 rfl rfl).symm k) = ix2 k p := funext fun a => Fin.ext (by
    match a with
    | ⟨0, _⟩ => exact (lhs_contract_0 _ _).trans hk
    | ⟨1, _⟩ => exact lhs_contract_1 _ _)
  have er : dot_S5000x256_S5000x32_S256x32_0_0_1_1_n_n.rhsIdx (ix2 p q) ((contrEquiv1 dot_S5000x256_S5000x32_S256x32_0_0_1_1_n_n 5000 rfl rfl).symm k) = ix2 k q := funext fun a => Fin.ext (by
    match a with
    | ⟨0, _⟩ => exact (rhs_contract_0 _ _).trans hk
    | ⟨1, _⟩ => exact rhs_contract_1 _ _)
  rw [el, er]

/-- The bias row spread over the block's rows reads, at any row, the bias at the column. -/
theorem bias_row_apply (b : FVec Ideal S1x32 .f32) (r : Fin 5000) (q : Fin 32) :
    broadcastTo S5000x32 (shapeCast S1x32 b shapeCasts_S1x32_S1x32) broadcasts_S1x32_S5000x32 (ix2 r q) = b (ix2 0 q) := by
  rw [shapeCast_self]
  exact broadcastTo_apply b broadcasts_S1x32_S5000x32 (ix2 r q) (ix2 0 q) (fun a => match a with
    | ⟨0, _⟩ => by show (0 : Nat) = if (1 : Nat) = 1 then 0 else r.val; rw [if_pos rfl]
    | ⟨1, _⟩ => by show q.val = if (32 : Nat) = 1 then 0 else q.val; rw [if_neg (by decide)])

/-- The logistic function on a vector reads, at an index, the logistic of the entry. -/
theorem logistic_apply {s : Shape} {φ : FTy} (v : FVec Ideal s φ) (i : s.Idx) : logistic v i = Ideal.logistic (v i) := rfl

/-- THE ACCUMULATION STEP at `(p, q)`: the old entry plus the block's contraction of the metapath block against
    the swish of the dense layer on the card block. -/
theorem accumulate_apply (x1 : Vec Ideal S5000x128 .f32) (x2 : Vec Ideal S128x32 .f32) (x3 : Vec Ideal S1x32 .f32)
    (acc : Vec Ideal S256x32 .f32) (x0 : Vec Ideal S5000x256 .f32) (p : Fin 256) (q : Fin 32) :
    k0_pay2 (F := Ideal) x1 x2 x3 acc x0 (ix2 p q)
      = acc (ix2 p q) + ∑ r : Fin 5000, x0 (ix2 r p) * swish ((∑ d : Fin 128, x1 (ix2 r d) * x2 (ix2 d q)) + x3 (ix2 0 q)) := by
  unfold k0_pay2
  rw [shapeCast_self, addf_apply, contract_matmul_apply]
  refine congrArg (acc (ix2 p q) + ·) (Finset.sum_congr rfl fun r _ => ?_)
  rw [truncf_apply, truncf_apply, mulf_apply, logistic_apply, addf_apply, dense_matmul_apply, bias_row_apply]
  rfl

/-! ## The pooling product: rows of the pools against columns of the finished accumulator -/

theorem lhs_pool_0 (i : S4096x32.Idx) (k : dot_S4096x256_S256x32_S4096x32_1_0_0_1_n_n.contr.Idx) :
    (dot_S4096x256_S256x32_S4096x32_1_0_0_1_n_n.lhsIdx i k 0).val = (i 0).val := by
  unfold DotDims.lhsIdx
  rw [dif_neg (show ¬(0 : Fin S4096x256.rank) ∈ dot_S4096x256_S256x32_S4096x32_1_0_0_1_n_n.lhsBatch by decide), dif_pos (show (0 : Fin S4096x256.rank) ∈ dot_S4096x256_S256x32_S4096x32_1_0_0_1_n_n.lhsNonContracting by decide)]
  rfl
theorem lhs_pool_1 (i : S4096x32.Idx) (k : dot_S4096x256_S256x32_S4096x32_1_0_0_1_n_n.contr.Idx) :
    (dot_S4096x256_S256x32_S4096x32_1_0_0_1_n_n.lhsIdx i k 1).val = (k ⟨0, by decide⟩).val :=
  dot_S4096x256_S256x32_S4096x32_1_0_0_1_n_n.lhsIdx_val_of_single rfl i k
theorem rhs_pool_0 (i : S4096x32.Idx) (k : dot_S4096x256_S256x32_S4096x32_1_0_0_1_n_n.contr.Idx) :
    (dot_S4096x256_S256x32_S4096x32_1_0_0_1_n_n.rhsIdx i k 0).val = (k ⟨0, by decide⟩).val :=
  dot_S4096x256_S256x32_S4096x32_1_0_0_1_n_n.rhsIdx_val_of_single rfl i k
theorem rhs_pool_1 (i : S4096x32.Idx) (k : dot_S4096x256_S256x32_S4096x32_1_0_0_1_n_n.contr.Idx) :
    (dot_S4096x256_S256x32_S4096x32_1_0_0_1_n_n.rhsIdx i k 1).val = (i 1).val := by
  unfold DotDims.rhsIdx
  rw [dif_neg (show ¬(1 : Fin S256x32.rank) ∈ dot_S4096x256_S256x32_S4096x32_1_0_0_1_n_n.rhsBatch by decide), dif_pos (show (1 : Fin S256x32.rank) ∈ dot_S4096x256_S256x32_S4096x32_1_0_0_1_n_n.rhsNonContracting by decide)]
  rfl

/-- THE FINAL STORE at `(a, q)`: the pools' row `a` against the accumulator's column `q`. -/
theorem pool_apply (x4 : Vec Ideal S4096x256 .f32) (acc : Vec Ideal S256x32 .f32) (a : Fin 4096) (q : Fin 32) :
    k0_pay3 (F := Ideal) x4 acc (ix2 a q) = ∑ p : Fin 256, x4 (ix2 a p) * acc (ix2 p q) := by
  unfold k0_pay3
  simp only [matmul]
  rw [Ideal.matmul_constant_zero_apply, ← Equiv.sum_comp (contrEquiv1 dot_S4096x256_S256x32_S4096x32_1_0_0_1_n_n 256 rfl rfl).symm]
  refine Finset.sum_congr rfl fun k _ => ?_
  have hk := contrEquiv1_symm_val dot_S4096x256_S256x32_S4096x32_1_0_0_1_n_n 256 rfl rfl k
  have el : dot_S4096x256_S256x32_S4096x32_1_0_0_1_n_n.lhsIdx (ix2 a q) ((contrEquiv1 dot_S4096x256_S256x32_S4096x32_1_0_0_1_n_n 256 rfl rfl).symm k) = ix2 a k := funext fun b => Fin.ext (by
    match b with
    | ⟨0, _⟩ => exact lhs_pool_0 _ _
    | ⟨1, _⟩ => exact (lhs_pool_1 _ _).trans hk)
  have er : dot_S4096x256_S256x32_S4096x32_1_0_0_1_n_n.rhsIdx (ix2 a q) ((contrEquiv1 dot_S4096x256_S256x32_S4096x32_1_0_0_1_n_n 256 rfl rfl).symm k) = ix2 k q := funext fun b => Fin.ext (by
    match b with
    | ⟨0, _⟩ => exact (rhs_pool_0 _ _).trans hk
    | ⟨1, _⟩ => exact rhs_pool_1 _ _)
  rw [el, er]

/-- THE RESET: every entry of the block stored at the first point is zero. -/
theorem reset_apply (i : S256x32.Idx) : k0_pay1 (F := Ideal) i = 0 := by
  unfold k0_pay1
  rw [shapeCast_self]
  exact Ideal.ofBits_zero_f32

end Cert.KernelIdeal.Payload

end
-- ==== Proof.KernelValue.lean ====
/-
  What the kernel's result array holds after the run, over the extended reals.

  Grid point `t` is handed rows `5000 t … 5000 t + 4999` of the metapath matrix and of the card embeddings, and the
  whole weights, bias row and pools. The accumulator the kernel carries from point to point starts from zero at the
  first point and gains block `t`'s contribution at point `t`, so after point `n` it is the sum of the contributions
  of blocks `0 … n`; after the twentieth it is the path embedding, since a sum over all rows is the sum of its twenty
  consecutive blocks. The last point alone writes the result back: the pools against that accumulator, one block that
  is the whole result array.
-/
import proofs.«102818_g73882027425809_cont_9to1c4b_278_3_alg».proof.Proof.Gen.KernelIdeal.Value
import proofs.«102818_g73882027425809_cont_9to1c4b_278_3_alg».proof.Proof.Pieces
import proofs.«102818_g73882027425809_cont_9to1c4b_278_3_alg».proof.Proof.Payload
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.Accumulated

open Cert.KernelIdeal Cert.KernelIdeal.Gen Idealize.ShloMosaic Idealize.ShloMosaic.TcCoe Idealize.SL.Sem
open Idealize.ShloMosaic.ValueIdx Cert.PathEmbed
open Idealize.ShloMosaic.Pipeline (Dat)

variable (m : (ℓ : Loc nD τ sig) → Buf (Elt Ideal) ℓ) (ρ : Dev nD → PrngReg)

/-- The five arrays as the kernel finds them: the metapath matrix, -/
abbrev mpArr (c : Dev nD) : Vec Ideal S100000x256 .f32 := V m c main_arg1
/-- the card embeddings, -/
abbrev cardArr (c : Dev nD) : Vec Ideal S100000x128 .f32 := V m c main_arg2
/-- the dense layer's weights, -/
abbrev wArr (c : Dev nD) : Vec Ideal S128x32 .f32 := V m c main_arg3
/-- its bias as a one-row matrix, -/
abbrev biasRow (c : Dev nD) : Vec Ideal S1x32 .f32 := V m c main_v0
/-- and the batch pools. -/
abbrev poolsArr (c : Dev nD) : Vec Ideal S4096x256 .f32 := V m c main_arg0

/-- The grid has twenty points. -/
theorem grid_lt (t : Fin cfg0.N) : t.val < 20 := lt_of_lt_of_eq t.isLt (show cfg0.N = 20 from N_0)

/-- Which block each operand shows at point `t`: block `t` along the rows for the metapath matrix and the card
    embeddings, the one whole block for the weights, the bias row, the pools and the result. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row `r` of the metapath block at point `t` is row `5000 t + r` of the matrix. -/
theorem mp_block (c : Dev nD) (t : Fin cfg0.N) (r : Fin 5000) (p : Fin 256) :
    (iblk m c 0 t : Vec Ideal S5000x256 .f32) (ix2 r p)
      = mpArr m c (ix2 ⟨5000 * t.val + r.val, by have := grid_lt t; have := r.isLt; omega⟩ p) := by
  unfold iblk
  rw [View.read_apply]
  show V m c main_arg1 (((cfg0.win 0).blk t).view.emb (ix2 r p)) = V m c main_arg1 _
  obtain ⟨e0, e1, -⟩ := index_facts t
  refine congrArg (V m c main_arg1) (funext fun a => Fin.ext ?_)
  match a with
  | ⟨0, _⟩ => show win0_0.index t (0 : Fin 2) * 5000 + 1 * r.val = 5000 * t.val + r.val; omega
  | ⟨1, _⟩ => show win0_0.index t (1 : Fin 2) * 256 + 1 * p.val = p.val; omega

/-- Row `r` of the card block at point `t` is row `5000 t + r` of the card embeddings. -/
theorem card_block (c : Dev nD) (t : Fin cfg0.N) (r : Fin 5000) (d : Fin 128) :
    (iblk m c 1 t : Vec Ideal S5000x128 .f32) (ix2 r d)
      = cardArr m c (ix2 ⟨5000 * t.val + r.val, by have := grid_lt t; have := r.isLt; omega⟩ d) := by
  unfold iblk
  rw [View.read_apply]
  show V m c main_arg2 (((cfg0.win 1).blk t).view.emb (ix2 r d)) = V m c main_arg2 _
  obtain ⟨-, -, e0, e1, -⟩ := index_facts t
  refine congrArg (V m c main_arg2) (funext fun a => Fin.ext ?_)
  match a with
  | ⟨0, _⟩ => show win0_1.index t (0 : Fin 2) * 5000 + 1 * r.val = 5000 * t.val + r.val; omega
  | ⟨1, _⟩ => show win0_1.index t (1 : Fin 2) * 128 + 1 * d.val = d.val; omega

/-- The weights' block is the whole weight matrix, at every point. -/
theorem w_block (c : Dev nD) (t : Fin cfg0.N) (i : S128x32.Idx) :
    (iblk m c 2 t : Vec Ideal S128x32 .f32) i = wArr m c i := by
  unfold iblk
  rw [View.read_apply]
  show V m c main_arg3 (((cfg0.win 2).blk t).view.emb i) = V m c main_arg3 _
  obtain ⟨-, -, -, -, e0, e1, -⟩ := index_facts t
  refine congrArg (V m c main_arg3) (funext fun a => Fin.ext ?_)
  match a with
  | ⟨0, _⟩ => show win0_2.index t (0 : Fin 2) * 128 + 1 * (i 0).val = (i 0).val; omega
  | ⟨1, _⟩ => show win0_2.index t (1 : Fin 2) * 32 + 1 * (i 1).val = (i 1).val; omega

/-- The bias row's block is the whole row, at every point. -/
theorem bias_block (c : Dev nD) (t : Fin cfg0.N) (i : S1x32.Idx) :
    (iblk m c 3 t : Vec Ideal S1x32 .f32) i = biasRow m c i := by
  unfold iblk
  rw [View.read_apply]
  show V m c main_v0 (((cfg0.win 3).blk t).view.emb i) = V m c main_v0 _
  obtain ⟨-, -, -, -, -, -, e0, e1, -⟩ := index_facts t
  refine congrArg (V m c main_v0) (funext fun a => Fin.ext ?_)
  match a with
  | ⟨0, _⟩ => show win0_3.index t (0 : Fin 2) * 1 + 1 * (i 0).val = (i 0).val; omega
  | ⟨1, _⟩ => show win0_3.index t (1 : Fin 2) * 32 + 1 * (i 1).val = (i 1).val; omega

/-- The pools' block is the whole pools matrix, at every point. -/
theorem pools_block (c : Dev nD) (t : Fin cfg0.N) (i : S4096x256.Idx) :
    (iblk m c 4 t : Vec Ideal S4096x256 .f32) i = poolsArr m c i := by
  unfold iblk
  rw [View.read_apply]
  show V m c main_arg0 (((cfg0.win 4).blk t).view.emb i) = V m c main_arg0 _
  obtain ⟨-, -, -, -, -, -, -, -, e0, e1, -⟩ := index_facts t
  refine congrArg (V m c main_arg0) (funext fun a => Fin.ext ?_)
  match a with
  | ⟨0, _⟩ => show win0_4.index t (0 : Fin 2) * 4096 + 1 * (i 0).val = (i 0).val; omega
  | ⟨1, _⟩ => show win0_4.index t (1 : Fin 2) * 256 + 1 * (i 1).val = (i 1).val; omega

/-- The bias as a function of the column: the bias row's one row. -/
abbrev biasAt (c : Dev nD) : Fin 32 → EReal := fun q => biasRow m c (ix2 0 q)

/-- The accumulation step at grid point `t`, over the whole arrays: the old entry plus block `t`'s contribution. -/
theorem step_apply (c : Dev nD) (t : Fin cfg0.N) (acc : Vec Ideal S256x32 .f32) (p : Fin 256) (q : Fin 32) :
    k0_pay2 (F := Ideal) (iblk m c 1 t) (iblk m c 2 t) (iblk m c 3 t) acc (iblk m c 0 t) (ix2 p q)
      = acc (ix2 p q) + blockEmb (mpArr m c) (cardArr m c) (wArr m c) (biasAt m c) t.val p q := by
  refine (Payload.accumulate_apply (iblk m c 1 t) (iblk m c 2 t) (iblk m c 3 t) acc (iblk m c 0 t) p q).trans ?_
  unfold blockEmb
  rw [dif_pos (grid_lt t)]
  refine congrArg (acc (ix2 p q) + ·) (Finset.sum_congr rfl fun r _ => ?_)
  unfold rowTerm dense
  rw [mp_block m c t r p, bias_block m c t (ix2 0 q)]
  refine congrArg (fun z => mpArr m c _ * swish (z + biasRow m c (ix2 0 q))) (Finset.sum_congr rfl fun d _ => ?_)
  rw [card_block m c t r d, w_block m c t (ix2 d q)]

/-- What point `n` leaves in the accumulator over what it found there (`acc`; nothing at the first point, which
    starts from zero): plus block `n`'s contribution, in every control case. -/
theorem scAt_apply (c : Dev nD) (n : ℕ) (hb : n < cfg0.N) (acc : Vec Ideal S256x32 .f32) (i : S256x32.Idx) :
    Value.scAt0_0 m c n hb acc i = (if n = 0 then 0 else acc i) + blockEmb (mpArr m c) (cardArr m c) (wArr m c) (biasAt m c) n (i 0) (i 1) := by
  have hN : n < 20 := lt_of_lt_of_eq hb (show cfg0.N = 20 from N_0)
  obtain ⟨p, q, rfl⟩ : ∃ (p : Fin 256) (q : Fin 32), i = ix2 p q := ⟨i 0, i 1, eq_ix2 i⟩
  unfold Value.scAt0_0
  by_cases h0 : n % 20 = 0
  · have h1 : ¬n % 20 = 19 := by omega
    have hn : n = 0 := by omega
    rw [dif_pos h0, dif_neg h1, if_pos hn]
    refine (congrFun (Pieces.scratch_A (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))) (ix2 p q)).trans ?_
    refine (step_apply m c ⟨n, hb⟩ (k0_pay1 (F := Ideal)) p q).trans ?_
    rw [Payload.reset_apply]
  · have hn : ¬n = 0 := by omega
    rw [dif_neg h0, if_neg hn]
    by_cases h1 : n % 20 = 19
    · rw [dif_pos h1]
      refine (congrFun (Pieces.scratch_C (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc) (ix2 p q)).trans ?_
      exact step_apply m c ⟨n, hb⟩ acc p q
    · rw [dif_neg h1]
      refine (congrFun (Pieces.scratch_B (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc) (ix2 p q)).trans ?_
      exact step_apply m c ⟨n, hb⟩ acc p q

/-- THE ACCUMULATOR AFTER POINT `n`: the sum of the contributions of blocks `0 … n`. -/
theorem acc_after (c : Dev nD) (n : ℕ) (hn : n < cfg0.N) (i : S256x32.Idx) :
    (outsAt0 m c n hn).2 i = ∑ s ∈ Finset.range (n + 1), blockEmb (mpArr m c) (cardArr m c) (wArr m c) (biasAt m c) s (i 0) (i 1) := by
  have hN : n < 20 := lt_of_lt_of_eq hn (show cfg0.N = 20 from N_0)
  rw [Value.soutsAt0_0_sweep m c n hn]
  have key := Pipeline.accAt_add_apply (N := cfg0.N) (ι := S256x32.Idx) (β := EReal)
    (fun n h => Value.scAt0_0 m c n h (VS0_0.read (Elt Ideal) VS0_0.junk)) (Value.scAt0_0 m c)
    (fun _ => 0) (fun s i => blockEmb (mpArr m c) (cardArr m c) (wArr m c) (biasAt m c) s (i 0) (i 1)) 0 19
    (fun h i => by rw [scAt_apply m c 0 h _ i, if_pos rfl])
    (fun k h acc i hk _ => by rw [scAt_apply m c k h acc i, if_neg (by omega)])
    n (by omega) (by omega) i
  rw [key, zero_add]
  refine Finset.sum_congr rfl fun s _ => ?_
  rw [Nat.zero_add]

/-- The bias row the region finds is the host's reshape of the bias vector: its entry at column `q` is the vector's. -/
theorem bias_eq (c : Dev nD) (q : Fin 32) : biasAt m c q = m ((c : Thread nD τ).loc main_arg4) (ix1 q) := by
  have e : (V m c main_v0 : S1x32.Idx → EReal) = shapeCast S1x32 (m ((c : Thread nD τ).loc main_arg4)) shapeCasts_S32_S1x32 := by
    dsimp only [V, hostOps0]; after_results; rfl
  show V m c main_v0 (ix2 0 q) = _
  rw [e]
  refine (shapeCast_addUnit_apply ![32] _ shapeCasts_S32_S1x32 (ix2 0 q)).trans ?_
  exact congrArg _ (funext fun a => match a with | ⟨0, _⟩ => rfl)

/-- The output's one block is the whole array: an index inside the block is the same index of the array. -/
theorem emb_out (t : Fin cfg0.N) (j : S4096x32.Idx) : ((cfg0.win 5).blk t).view.emb j = j := by
  obtain ⟨-, -, -, -, -, -, -, -, -, -, e0, e1⟩ := index_facts t
  funext a; apply Fin.ext
  match a with
  | ⟨0, _⟩ => show win0_5.index t (0 : Fin 2) * 4096 + 1 * (j 0).val = (j 0).val; omega
  | ⟨1, _⟩ => show win0_5.index t (1 : Fin 2) * 32 + 1 * (j 1).val = (j 1).val; omega

/-- WHAT THE LAST POINT WRITES BACK is the pooled result: the pools against the accumulator after all twenty blocks,
    which is the path embedding. -/
theorem flushed_eq (c : Dev nD) (t : Fin cfg0.N) (hf : (cfg0.win 5).flush t = true) :
    (dats m 0 c).flushed 5 t = ((cfg0.win 5).blk t).view.read (Elt Ideal) (result (poolsArr m c) (mpArr m c) (cardArr m c) (wArr m c) (biasAt m c)) := by
  have hN := grid_lt t
  have h19 : t.val % 20 = 19 := (flush0_5 t).mp hf
  have h0 : ¬t.val % 20 = 0 := by omega
  have ht : t.val = 19 := by omega
  rw [Value.flushed5_C m c t h0 h19]
  funext j
  obtain ⟨a, q, rfl⟩ : ∃ (a : Fin 4096) (q : Fin 32), j = ix2 a q := ⟨j 0, j 1, eq_ix2 j⟩
  rw [View.read_apply, emb_out]
  show out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (iblk m c 0 t) (iblk m c 1 t) (iblk m c 2 t) (iblk m c 3 t) (iblk m c 4 t) ((outsAt0 m c (t.val - 1) _).2) (ix2 a q) = _
  refine (congrFun (Pieces.output_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (iblk m c 0 t) (iblk m c 1 t) (iblk m c 2 t) (iblk m c 3 t) (iblk m c 4 t) (outsAt0 m c (t.val - 1) (Nat.lt_of_le_of_lt (Nat.sub_le _ _) t.isLt)).2) (ix2 a q)).trans ?_
  refine (Payload.pool_apply (iblk m c 4 t) _ a q).trans ?_
  show _ = pooled _ _ _ _ _ a q
  unfold pooled
  refine Finset.sum_congr rfl fun p _ => ?_
  rw [pools_block m c t (ix2 a p), step_apply m c t _ p q, acc_after m c (t.val - 1) _ (ix2 p q), pathEmb_eq_sum_blocks]
  refine congrArg (poolsArr m c (ix2 a p) * ·) ?_
  show (∑ s ∈ Finset.range (t.val - 1 + 1), blockEmb (mpArr m c) (cardArr m c) (wArr m c) (biasAt m c) s p q) + blockEmb (mpArr m c) (cardArr m c) (wArr m c) (biasAt m c) t.val p q = _
  rw [show t.val - 1 + 1 = t.val by omega, ← Finset.sum_range_succ, ht]

/-- The grid's last point, the one that writes the result back. -/
abbrev lastPt : Fin cfg0.N := ⟨19, by rw [show cfg0.N = 20 from N_0]; decide⟩

/-- So the result array ends holding the pooled result: the last point's block covers it. -/
theorem final (c : Dev nD) : (dats m 0 c).arrAt 5 cfg0.N = result (poolsArr m c) (mpArr m c) (cardArr m c) (wArr m c) (biasAt m c) :=
  (dats m 0 c).arrAt_eq_of_cover 5 _ (flushed_eq m c) fun i =>
    ⟨lastPt, (flush0_5 lastPt).mpr rfl, by
      show i ∈ ((View.whole main_v1).slice (win0_5.rect lastPt)).set
      rw [View.set_slice_whole, Rect.mem_set_unit]
      intro a
      obtain ⟨-, -, -, -, -, -, -, -, -, -, e0, e1⟩ := index_facts lastPt
      have h0 : (i 0).val < 4096 := (i 0).isLt
      have h1 : (i 1).val < 32 := (i 1).isLt
      match a with
      | ⟨0, _⟩ => show win0_5.index lastPt (0 : Fin 2) * 4096 ≤ (i 0).val ∧ (i 0).val < win0_5.index lastPt (0 : Fin 2) * 4096 + 4096; omega
      | ⟨1, _⟩ => show win0_5.index lastPt (1 : Fin 2) * 32 ≤ (i 1).val ∧ (i 1).val < win0_5.index lastPt (1 : Fin 2) * 32 + 32; omega⟩

/-- The arrays the region finds are the launch arguments, and the bias row the bias vector. -/
theorem result_args (c : Dev nD) : result (poolsArr m c) (mpArr m c) (cardArr m c) (wArr m c) (biasAt m c) = result (m ((c : Thread nD τ).loc main_arg0)) (m ((c : Thread nD τ).loc main_arg1)) (m ((c : Thread nD τ).loc main_arg2)) (m ((c : Thread nD τ).loc main_arg3)) (fun q => m ((c : Thread nD τ).loc main_arg4) (ix1 q)) := by
  have e0 : poolsArr m c = m ((c : Thread nD τ).loc main_arg0) := V_main_arg0 m c
  have e1 : mpArr m c = m ((c : Thread nD τ).loc main_arg1) := V_main_arg1 m c
  have e2 : cardArr m c = m ((c : Thread nD τ).loc main_arg2) := V_main_arg2 m c
  have e3 : wArr m c = m ((c : Thread nD τ).loc main_arg3) := V_main_arg3 m c
  have e4 : biasAt m c = fun q => m ((c : Thread nD τ).loc main_arg4) (ix1 q) := funext (bias_eq m c)
  rw [e0, e1, e2, e3, e4]

/-- THE KERNEL'S RUN, READ: the result array at the pooled result of the launch arguments, the arguments unchanged. -/
theorem run : θ_run defs (onTc (τ := τ) (main (F := Ideal))) ⟨m, fun _ => 0, ρ⟩ fun r => ∀ c : Dev nD,
      r.2.mem ((c : Thread nD τ).loc main_v1) = result (m ((c : Thread nD τ).loc main_arg0)) (m ((c : Thread nD τ).loc main_arg1)) (m ((c : Thread nD τ).loc main_arg2)) (m ((c : Thread nD τ).loc main_arg3)) (fun q => m ((c : Thread nD τ).loc main_arg4) (ix1 q))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (result_args m c)), (h c).2⟩)
    (Value.run_blocks m ρ)

end Cert.KernelIdeal.Accumulated

end
-- ==== Proof.ReferenceValue.lean ====
/-
  The reference computes the same function.

  Read one operation at a time, the reference's result at `(a, q)` is `Σ_p pools(a, p) · E(p, q)` with
  `E(p, q) = Σ_n metaᵀ(p, n) · t(n, q)`, the transpose read back as `meta(n, p)`, and `t(n, q) = s · (1 / (1 + e^(-s)))`
  for the dense entry `s`: the sigmoid spelled out by negation, exponential, sum with one and quotient, which is
  the logistic function on the extended reals by its definition.
-/
import proofs.«102818_g73882027425809_cont_9to1c4b_278_3_alg».proof.Proof.Gen.ReferenceIdeal.Read
import proofs.«102818_g73882027425809_cont_9to1c4b_278_3_alg».proof.Proof.Spec
import Idealize.ShloMosaic.Lib.ValueIdx
import Idealize.ShloMosaic.PureOps.Ideal.Laws

noncomputable section

open scoped BigOperators

namespace Cert.ReferenceIdeal.Pooled

open Cert.ReferenceIdeal Cert.ReferenceIdeal.Gen Cert.ReferenceIdeal.Read Idealize.ShloMosaic Idealize.ShloMosaic.ValueIdx Cert.PathEmbed

/-- The word of the float `1.0` denotes the extended real one. -/
theorem one_f32 : Ideal.ofBits .f32 0x3F800000#32 = 1 := IdealRules.sign_bit.ideal_onePat .f32

/-- The reference's dense layer at `(n, q)` is the dense entry. -/
theorem dense_ref (x2 : (⟨S100000x128, .f32⟩ : BufTy).Contents (Elt Ideal)) (x3 : (⟨S128x32, .f32⟩ : BufTy).Contents (Elt Ideal))
    (x4 : (⟨S32, .f32⟩ : BufTy).Contents (Elt Ideal)) (n : Fin 100000) (q : Fin 32) :
    val_main_v3 (F := Ideal) x2 x3 x4 (ix2 n q) = dense x2 x3 (fun q => x4 (ix1 q)) n q := by
  rw [val_main_v3_apply, val_main_v0_apply, val_main_v2_apply, val_main_v1_apply]
  unfold dense
  rw [Ideal.addf_def]
  have hb : idx_main_v1 (idx_main_v2 (ix2 n q)) = ix1 q := funext fun a => Fin.ext (by match a with | ⟨0, _⟩ => rfl)
  rw [hb]
  refine congrArg (· + x4 (ix1 q)) (Finset.sum_congr rfl fun d _ => ?_)
  have hl : lidx_main_v0 (ix2 n q) d = ix2 n d := funext fun a => Fin.ext (by match a with | ⟨0, _⟩ => rfl | ⟨1, _⟩ => rfl)
  have hr : ridx_main_v0 (ix2 n q) d = ix2 d q := funext fun a => Fin.ext (by match a with | ⟨0, _⟩ => rfl | ⟨1, _⟩ => rfl)
  rw [hl, hr]

/-- The reference's activated layer at `(n, q)` is the swish of the dense entry. -/
theorem swish_ref (x2 : (⟨S100000x128, .f32⟩ : BufTy).Contents (Elt Ideal)) (x3 : (⟨S128x32, .f32⟩ : BufTy).Contents (Elt Ideal))
    (x4 : (⟨S32, .f32⟩ : BufTy).Contents (Elt Ideal)) (n : Fin 100000) (q : Fin 32) :
    val_main_v10 (F := Ideal) x2 x3 x4 (ix2 n q) = swish (dense x2 x3 (fun q => x4 (ix1 q)) n q) := by
  rw [val_main_v10_apply, val_main_v9_apply, val_main_v8_apply, val_main_cst_0_apply, val_main_v7_apply, val_main_v6_apply,
    val_main_cst_apply, val_main_v5_apply, val_main_v4_apply, dense_ref]
  unfold swish Ideal.logistic
  simp only [Ideal.mulf_def, Ideal.hostDivf_def, Ideal.addf_def, Ideal.hostUnary_exp_def, Ideal.hostNegf_def, Ideal.negf_def,
    Ideal.ofBits_def, one_f32]

/-- THE REFERENCE'S RESULT is the pooled result of its arguments. -/
theorem reference_eq (x0 : (⟨S4096x256, .f32⟩ : BufTy).Contents (Elt Ideal)) (x1 : (⟨S100000x256, .f32⟩ : BufTy).Contents (Elt Ideal))
    (x2 : (⟨S100000x128, .f32⟩ : BufTy).Contents (Elt Ideal)) (x3 : (⟨S128x32, .f32⟩ : BufTy).Contents (Elt Ideal))
    (x4 : (⟨S32, .f32⟩ : BufTy).Contents (Elt Ideal)) :
    val_main_v13 (F := Ideal) x0 x1 x2 x3 x4 = result x0 x1 x2 x3 (fun q => x4 (ix1 q)) := by
  funext i
  obtain ⟨a, q, rfl⟩ : ∃ (a : Fin 4096) (q : Fin 32), i = ix2 a q := ⟨i 0, i 1, eq_ix2 i⟩
  rw [val_main_v13_apply]
  show _ = pooled _ _ _ _ _ a q
  unfold pooled
  refine Finset.sum_congr rfl fun p _ => ?_
  have hl : lidx_main_v13 (ix2 a q) p = ix2 a p := funext fun b => Fin.ext (by match b with | ⟨0, _⟩ => rfl | ⟨1, _⟩ => rfl)
  have hr : ridx_main_v13 (ix2 a q) p = ix2 p q := funext fun b => Fin.ext (by match b with | ⟨0, _⟩ => rfl | ⟨1, _⟩ => rfl)
  rw [hl, hr, val_main_v12_apply]
  unfold pathEmb
  refine congrArg (x0 (ix2 a p) * ·) (Finset.sum_congr rfl fun n _ => ?_)
  have hl2 : idx_main_v11 (lidx_main_v12 (ix2 p q) n) = ix2 n p := funext fun b => Fin.ext (by match b with | ⟨0, _⟩ => rfl | ⟨1, _⟩ => rfl)
  have hr2 : ridx_main_v12 (ix2 p q) n = ix2 n q := funext fun b => Fin.ext (by match b with | ⟨0, _⟩ => rfl | ⟨1, _⟩ => rfl)
  rw [val_main_v11_apply, hl2, hr2, swish_ref]
  rfl

end Cert.ReferenceIdeal.Pooled

end
-- ==== Proof.lean ====
/-
  The kernel streams the 100000 card rows in twenty blocks of 5000, applies the dense layer with the swish activation
  to each block, contracts the block against the matching rows of the metapath matrix into a carried accumulator, and
  at the last block multiplies the pools by that accumulator. The reference does the same three products on the whole
  arrays. Over the extended reals both compute
    out(a, q) = Σ_p pools(a, p) · Σ_n meta(n, p) · swish(Σ_d card(n, d) · w(d, q) + bias(q)) :
  a change of float format is the identity there, a matrix product into a zero accumulator is the plain sum of
  products, the kernel's logistic is the reference's `1 / (1 + e^(-s))`, and the sum over all rows is the sum of its
  twenty consecutive blocks because addition of extended reals is commutative and associative. No finiteness of the
  inputs is used. The kernel and its idealization run by their generated frames; the idealization rewrote nothing.
-/
import proofs.«102818_g73882027425809_cont_9to1c4b_278_3_alg».proof.Defs
import proofs.«102818_g73882027425809_cont_9to1c4b_278_3_alg».proof.Proof.Gen.Kernel
import proofs.«102818_g73882027425809_cont_9to1c4b_278_3_alg».proof.Proof.Gen.Kernel.Skeleton
import proofs.«102818_g73882027425809_cont_9to1c4b_278_3_alg».proof.Proof.Gen.Kernel.Launch
import proofs.«102818_g73882027425809_cont_9to1c4b_278_3_alg».proof.Proof.Gen.Kernel.Points
import proofs.«102818_g73882027425809_cont_9to1c4b_278_3_alg».proof.Proof.Gen.Kernel.Frame
import proofs.«102818_g73882027425809_cont_9to1c4b_278_3_alg».proof.Proof.Gen.KernelIdeal
import proofs.«102818_g73882027425809_cont_9to1c4b_278_3_alg».proof.Proof.Gen.KernelIdeal.Skeleton
import proofs.«102818_g73882027425809_cont_9to1c4b_278_3_alg».proof.Proof.Gen.KernelIdeal.Launch
import proofs.«102818_g73882027425809_cont_9to1c4b_278_3_alg».proof.Proof.Gen.KernelIdeal.Points
import proofs.«102818_g73882027425809_cont_9to1c4b_278_3_alg».proof.Proof.Gen.KernelIdeal.Frame
import proofs.«102818_g73882027425809_cont_9to1c4b_278_3_alg».proof.Proof.Gen.ReferenceIdeal
import proofs.«102818_g73882027425809_cont_9to1c4b_278_3_alg».proof.Proof.Gen.Pre_finite_inputs
import proofs.«102818_g73882027425809_cont_9to1c4b_278_3_alg».proof.Proof.Gen.KernelIdeal.Value
import proofs.«102818_g73882027425809_cont_9to1c4b_278_3_alg».proof.Proof.Gen.ReferenceIdeal.Run
import proofs.«102818_g73882027425809_cont_9to1c4b_278_3_alg».proof.Proof.Gen.ReferenceIdeal.Read
import proofs.«102818_g73882027425809_cont_9to1c4b_278_3_alg».proof.Proof.KernelValue
import proofs.«102818_g73882027425809_cont_9to1c4b_278_3_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the pooled result of those arguments. -/
theorem algebraic : Cert.algebraic_KernelIdeal_ReferenceIdeal := by
  intro m ρ m' ρ' _ hagree
  refine ⟨_, Cert.KernelIdeal.Accumulated.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.Pooled.reference_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
